-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S8192x8192 : Shape := ⟨2, ![8192, 8192]⟩
abbrev S2048x256 : Shape := ⟨2, ![2048, 256]⟩
abbrev S1024x256 : Shape := ⟨2, ![1024, 256]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S2048x1024, .f32⟩
  | .local _ .vmem, ⟨5, _⟩ => ⟨S2048x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  reduces_S2048x256_S2048 : S2048x256.Reduces [1] S2048
  shapeCasts_S2048_S2048x1 : S2048.ShapeCasts S2048x1
  reduces_S1024x256_S1024 : S1024x256.Reduces [1] S1024
  shapeCasts_S1024_S1024x1 : S1024.ShapeCasts S1024x1
  transposes_S1024x1_p1_0_S1x1024 : S1024x1.Transposes [1, 0] S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .f32 = 32 ∨ (Rect.block (s := S8192x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«181744_j65481071395625_1_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«181744_j65481071395625_1_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.GaussianTable.lean ====
/-
  The Gaussian similarity table of two families of points, as a plain function of extended reals.

  The rows of `x : [a, K]` and of `y : [N, K]` are points of a `K`-dimensional space. Entry `(r, q)` of the table is
  `exp (−(‖x_r‖² − 2·⟨x_r, y_q⟩ + ‖y_q‖²))`, the squared distance `‖x_r − y_q‖²` written through the two squared
  lengths and the inner product, in exactly that order of operations: first the squared length of `x_r` minus twice
  the inner product, then plus the squared length of `y_q`, then the sign, then the exponential. The numbers `2` and
  `−1` are kept as the float words a program writes for them; nothing here evaluates them.

  An entry depends on `x` only through row `r` and on `y` only through row `q` (`entry_congr`): that is what lets
  a tile of the table, computed from a band of rows of `x` and a band of rows of `y`, be read as a piece of the
  whole table.
-/
import Idealize.ShloMosaic.PureOps.Ideal
import Idealize.ShloMosaic.Lib.ValueIdx
import proofs.«181744_j65481071395625_1_alg».proof.Proof.LibRowsDot

noncomputable section

namespace Cert.Gaussian

open Idealize.ShloMosaic Idealize.ShloMosaic.ValueIdx
open Cert.DenseLayer (Mat)
open Cert.DenseRows (prodRowT prodRowT_congr)

variable {a N K : ℕ}

/-- The squared length of row `r`: the sum over `k` of `x (r, k) · x (r, k)`. -/
def sqLen (x : Mat a K) (r : Fin a) : EReal := ∑ k : Fin K, x (ix2 r k) * x (ix2 r k)

/-- The squared length of a row depends only on that row. -/
theorem sqLen_congr {a' : ℕ} (x : Mat a K) (x' : Mat a' K) (r : Fin a) (r' : Fin a')
    (h : ∀ k, x (ix2 r k) = x' (ix2 r' k)) : sqLen x r = sqLen x' r' :=
  Finset.sum_congr rfl fun k _ => by rw [h k]

/-- Entry `(r, q)` of the table: `exp (−1 · ((‖x_r‖² − 2 · ⟨x_r, y_q⟩) + ‖y_q‖²))`. -/
def entry (x : Mat a K) (y : Mat N K) (r : Fin a) (q : Fin N) : EReal :=
  Ideal.exp (Ideal.ofBits .f32 0xBF800000#32
    * (sqLen x r - Ideal.ofBits .f32 0x40000000#32 * prodRowT x y r q + sqLen y q))

/-- An entry depends on `x` only through its row and on `y` only through the row of the column asked for: matrices
    of any heights that agree along those two rows give the same entry. -/
theorem entry_congr {a' N' : ℕ} (x : Mat a K) (x' : Mat a' K) (y : Mat N K) (y' : Mat N' K) (r : Fin a) (r' : Fin a')
    (q : Fin N) (q' : Fin N') (hx : ∀ k, x (ix2 r k) = x' (ix2 r' k)) (hy : ∀ k, y (ix2 q k) = y' (ix2 q' k)) :
    entry x y r q = entry x' y' r' q' := by
  unfold entry
  rw [sqLen_congr x x' r r' hx, sqLen_congr y y' q q' hy, prodRowT_congr x x' y y' r r' q q' hx hy]

/-- The whole table, indexed as the arrays are. -/
def table (x : Mat a K) (y : Mat N K) : Mat a N := fun i => entry x y (i 0) (i 1)

theorem table_apply (x : Mat a K) (y : Mat N K) (r : Fin a) (q : Fin N) : table x y (ix2 r q) = entry x y r q := rfl

end Cert.Gaussian

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«181744_j65481071395625_1_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibRowsDims.lean ====
/-
  Products with the rows of a matrix, `x · wᵀ`, recognised from a contraction's axis lists, and a vector program's
  spelling of one.

  For a product `[a, K] × [N, K] → [a, N]` with no batch axis, the second axis of both operands summed, and the two
  first axes carried in order, the left operand is read at `(row, k)` and the right at `(column, k)`: the record is a
  `RowsDot` (`rowsDot_of_axes`, generic in the extents; the six axis lists are equations that hold by `rfl` of any
  record written with those lists). Then a vector program's matrix product of this kind into the zero accumulator,
  at the ideal values, is `prodRowT` entry by entry, whatever the operands' float formats (`matmul_zero_rows_apply`).
-/
import Idealize.ShloMosaic.PureOps.Dims
import proofs.«181744_j65481071395625_1_alg».proof.Proof.LibRowsDot
import proofs.«181744_j65481071395625_1_alg».proof.Proof.LibPlainDot

noncomputable section

namespace Cert.DenseRows

open Idealize.ShloMosaic Idealize.ShloMosaic.ValueIdx
open Cert.DenseLayer (Mat coord_val_congr)

variable {a K N : ℕ}

/-- Dimension numbers with no batch axis that sum axis 1 of both operands and carry the left operand's axis 0 and
    then the right operand's axis 0 are those of a product with the rows of the right operand. -/
theorem rowsDot_of_axes (d : DotDims ⟨2, ![a, K]⟩ ⟨2, ![N, K]⟩ ⟨2, ![a, N]⟩)
    (hlc : d.lhsContracting = [1]) (hrc : d.rhsContracting = [1])
    (hln : d.lhsNonContracting = [0]) (hrn : d.rhsNonContracting = [0])
    (hlb : d.lhsBatch = []) (hrb : d.rhsBatch = []) : RowsDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => by
    have hb : (0 : Fin (⟨2, ![N, K]⟩ : Shape).rank) ∉ d.rhsBatch := by rw [hrb]; exact List.not_mem_nil
    have hn : (0 : Fin (⟨2, ![N, K]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])
  rhs1 := fun i q => d.rhsIdx_val_of_single hrc i q

/-- A vector program's matrix product along the second axis of both operands into the zero accumulator, at the
    ideal values, is `prodRowT` entry by entry. -/
theorem matmul_zero_rows_apply {φ₁ φ₂ : FTy} {d : DotDims ⟨2, ![a, K]⟩ ⟨2, ![N, K]⟩ ⟨2, ![a, N]⟩} (hd : RowsDot d)
    (prec : Option ContractPrecision) (x : FVec Ideal ⟨2, ![a, K]⟩ φ₁) (w : FVec Ideal ⟨2, ![N, K]⟩ φ₂)
    (i : (⟨2, ![a, N]⟩ : Shape).Idx) :
    FloatOps.matmul d prec x w (constant ⟨2, ![a, N]⟩ .f32 0x00000000#32) i = prodRowT x w (i 0) (i 1) :=
  (Ideal.matmul_constant_zero_apply d prec x w i).trans (sum_contr_eq_prodRowT hd x w i)

end Cert.DenseRows

end
-- ==== Proof.KernelTile.lean ====
/-
  One tile of the kernel is one tile of the Gaussian similarity table.

  The kernel body is handed a band `x` of 2048 points and a band `y` of 1024 points (each a row of 256 coordinates)
  and stores, at `(p, q)`, the exponential of `−1` times `((sx p − 2 · c (p, q)) + sy q)`, where `sx` is the column of
  row sums of `x · x` laid over all columns, `sy` the column of row sums of `y · y` turned into a row and laid over all
  rows, and `c` the matrix product of `x` with the rows of `y` accumulated from zero. At the exact values a row sum is
  the sum over the row, the product from a zero accumulator is the sum of products, and the layout steps only move
  indices: the stored value is `Gaussian.entry x y p q`.
-/
import proofs.«181744_j65481071395625_1_alg».proof.Proof.Gen.KernelIdeal.Skeleton
import proofs.«181744_j65481071395625_1_alg».proof.Proof.GaussianTable
import proofs.«181744_j65481071395625_1_alg».proof.Proof.LibRowsDims
import proofs.«181744_j65481071395625_1_alg».proof.Proof.LibColumnLayout

noncomputable section

namespace Cert.Gaussian.OfKernel

open Idealize.ShloMosaic Idealize.ShloMosaic.ValueIdx
open Cert.KernelIdeal Cert.KernelIdeal.Gen
open Cert.DenseLayer (Mat)
open Cert.DenseRows (prodRowT RowsDot rowsDot_of_axes matmul_zero_rows_apply)

/-- The kernel's product sums the second axis of both bands: it is the product of `x` with the rows of `y`. -/
theorem inner_dims : RowsDot dot_S2048x256_S1024x256_S2048x1024_1_1_0_0_n_n :=
  rowsDot_of_axes _ rfl rfl rfl rfl rfl rfl

/-- The column of squared lengths of the band `x`, laid over the 1024 columns, holds at `(p, q)` the squared length
    of row `p`. -/
theorem x_lengths_apply (x : Mat 2048 256) (p : Fin 2048) (q : Fin 1024) :
    broadcastTo S2048x1024 (shapeCast S2048x1 (multiReduction (F := Ideal) .add [1] S2048 (mulf x x) 0x00000000#32
      Facts₀.reduces_S2048x256_S2048 (.inl rfl) rfl) Facts₀.shapeCasts_S2048_S2048x1) Facts₀.broadcasts_S2048x1_S2048x1024 (ix2 p q)
      = sqLen x p :=
  (ColumnLayout.column_over_columns_apply _ _ _ p q).trans
    (ColumnLayout.multiReduction_add_rows_apply (mulf x x) _ _ _ _ p)

/-- The column of squared lengths of the band `y`, turned into a row and laid over the 2048 rows, holds at `(p, q)`
    the squared length of row `q`. -/
theorem y_lengths_apply (y : Mat 1024 256) (p : Fin 2048) (q : Fin 1024) :
    broadcastTo S2048x1024 (transpose S1x1024 [1, 0] (shapeCast S1024x1 (multiReduction (F := Ideal) .add [1] S1024 (mulf y y) 0x00000000#32
      Facts₀.reduces_S1024x256_S1024 (.inl rfl) rfl) Facts₀.shapeCasts_S1024_S1024x1) Facts₀.transposes_S1024x1_p1_0_S1x1024)
      Facts₀.broadcasts_S1x1024_S2048x1024 (ix2 p q)
      = sqLen y q :=
  (ColumnLayout.column_as_row_over_rows_apply _ _ _ _ p q).trans
    (ColumnLayout.multiReduction_add_rows_apply (mulf y y) _ _ _ _ q)

/-- The product of the two bands from the zero accumulator holds at `(p, q)` the inner product of row `p` of `x`
    with row `q` of `y`. -/
theorem inner_apply (x : Mat 2048 256) (y : Mat 1024 256) (p : Fin 2048) (q : Fin 1024) :
    matmul (F := Ideal) (φ₁ := .f32) (φ₂ := .f32) dot_S2048x256_S1024x256_S2048x1024_1_1_0_0_n_n none x y
        (constant S2048x1024 .f32 0x00000000#32) (ix2 p q)
      = prodRowT x y p q :=
  matmul_zero_rows_apply (φ₁ := .f32) (φ₂ := .f32) inner_dims none x y (ix2 p q)

/-- What the body stores at `(p, q)` of its tile, at the exact values: the Gaussian entry of row `p` of the band `x`
    and row `q` of the band `y`. -/
theorem tile_apply (x : Mat 2048 256) (y : Mat 1024 256) (p : Fin 2048) (q : Fin 1024) :
    k0_pay1 (F := Ideal) x y (ix2 p q) = entry x y p q := by
  unfold k0_pay1 entry
  show Ideal.exp (Ideal.ofBits .f32 0xBF800000#32 * ((_ - Ideal.ofBits .f32 0x40000000#32 * _) + _)) = _
  rw [x_lengths_apply x p q, y_lengths_apply y p q, inner_apply x y p q]

end Cert.Gaussian.OfKernel

end
-- ==== Proof.KernelArray.lean ====
/-
  The kernel's result array is the Gaussian similarity table of its two argument arrays.

  The grid has 4 × 8 points. Point `t`, at grid coordinates `(u, v)`, is handed rows `2048·u … 2048·u + 2047` of the
  first argument and rows `1024·v … 1024·v + 1023` of the second — all 256 coordinates of each —, and writes the tile of
  the result at rows `2048·u …` and columns `1024·v …`. Inside the tile, position `(p, q)` holds the Gaussian entry of
  row `p` of the first band and row `q` of the second (the tile lemma); those rows are rows `2048·u + p` and
  `1024·v + q` of the whole arguments, and an entry depends on nothing else, so the tile is the matching tile of the
  whole table. Every index `(r, s)` of the result lies in the tile of the point at `(r / 2048, s / 1024)`, and every
  point writes back: the array ends holding the table.
-/
import proofs.«181744_j65481071395625_1_alg».proof.Proof.Gen.KernelIdeal.Value
import proofs.«181744_j65481071395625_1_alg».proof.Proof.KernelTile

noncomputable section

namespace Cert.Gaussian.OfKernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the corner of their buffers. -/
theorem corner : (![0, 0] : Fin 2 → Nat) = fun _ => 0 := funext fun a => by fin_cases a <;> rfl

/-- Where the three windows stand at a grid point, decided over the 32 points: the band of the first argument
    follows the tile's row of tiles, the band of the second argument the tile's column of tiles, both bands take
    every coordinate, and the tile's position stays inside the 4 × 8 arrangement. -/
theorem bands_follow_tile : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 7 :=
  (by decide +kernel : ∀ t : Fin grid0.N, _)

/-- Every one of the 4 × 8 tile positions is some point's. -/
theorem every_tile_visited : ∀ (u : Fin 4) (v : Fin 8), ∃ t : Fin cfg0.N, win0_2.index t = ![u.val, v.val] :=
  (by decide +kernel : ∀ (u : Fin 4) (v : Fin 8), ∃ t : Fin grid0.N, win0_2.index t = ![u.val, v.val])

/-- WHAT POINT `t` WRITES BACK is tile `t` of the table of the two argument arrays. -/
theorem tile_written (c : Dev nD) (t : Fin cfg0.N) :
    (dats m 0 c).flushed 2 t
      = ((cfg0.win 2).blk t).view.read (Elt Ideal) (table (V m c main_arg0) (V m c main_arg1)) := by
  rw [Cert.KernelIdeal.Value.flushed2]
  unfold out0_2
  rw [View.canon_unit_zero corner]
  simp only [View.ld_unit_zero (S := S2048x256) corner, View.ld_unit_zero (S := S1024x256) corner]
  obtain ⟨e0, e1, e2, e3, b0, b1⟩ := bands_follow_tile t
  funext j
  obtain ⟨p, q, rfl⟩ : ∃ (p : Fin 2048) (q : Fin 1024), j = ix2 p q := ⟨j 0, j 1, eq_ix2 j⟩
  have hp : p.val < 2048 := p.isLt
  have hq : q.val < 1024 := q.isLt
  have hr : win0_2.index t (0 : Fin 2) * 2048 + p.val < 8192 := by omega
  have hs : win0_2.index t (1 : Fin 2) * 1024 + q.val < 8192 := by omega
  -- position (p, q) of the tile is index (2048·u + p, 1024·v + q) of the array
  have hemb : ((cfg0.win 2).blk t).view.emb (ix2 p q)
      = ix2 (⟨win0_2.index t (0 : Fin 2) * 2048 + p.val, hr⟩ : Fin 8192) (⟨win0_2.index t (1 : Fin 2) * 1024 + q.val, hs⟩ : Fin 8192) := by
    funext a; apply Fin.ext
    match a with
    | ⟨0, _⟩ => show win0_2.index t (0 : Fin 2) * 2048 + 1 * p.val = win0_2.index t (0 : Fin 2) * 2048 + p.val; omega
    | ⟨1, _⟩ => show win0_2.index t (1 : Fin 2) * 1024 + 1 * q.val = win0_2.index t (1 : Fin 2) * 1024 + q.val; omega
  show k0_pay1 (F := Ideal) (iblk m c 0 t) (iblk m c 1 t) (ix2 p q)
    = table (V m c main_arg0) (V m c main_arg1) (((cfg0.win 2).blk t).view.emb (ix2 p q))
  rw [hemb, table_apply]
  refine (tile_apply (iblk m c 0 t) (iblk m c 1 t) p q).trans ?_
  refine entry_congr (iblk m c 0 t) (V m c main_arg0) (iblk m c 1 t) (V m c main_arg1) p _ q _ (fun k => ?_) (fun k => ?_)
  · -- row p of the first band is row 2048·u + p of the first argument
    have hk : k.val < 256 := k.isLt
    show V m c main_arg0 (((cfg0.win 0).blk t).view.emb (ix2 p k)) = V m c main_arg0 (ix2 _ k)
    refine congrArg (V m c main_arg0) (funext fun a => Fin.ext ?_)
    match a with
    | ⟨0, _⟩ => show win0_0.index t (0 : Fin 2) * 2048 + 1 * p.val = win0_2.index t (0 : Fin 2) * 2048 + p.val; omega
    | ⟨1, _⟩ => show win0_0.index t (1 : Fin 2) * 256 + 1 * k.val = k.val; omega
  · -- row q of the second band is row 1024·v + q of the second argument
    have hk : k.val < 256 := k.isLt
    show V m c main_arg1 (((cfg0.win 1).blk t).view.emb (ix2 q k)) = V m c main_arg1 (ix2 _ k)
    refine congrArg (V m c main_arg1) (funext fun a => Fin.ext ?_)
    match a with
    | ⟨0, _⟩ => show win0_1.index t (0 : Fin 2) * 1024 + 1 * q.val = win0_2.index t (1 : Fin 2) * 1024 + q.val; omega
    | ⟨1, _⟩ => show win0_1.index t (1 : Fin 2) * 256 + 1 * k.val = k.val; omega

/-- An index of the result is in point `t`'s tile iff each coordinate is in the tile's range on its axis. -/
theorem mem_tile (t : Fin cfg0.N) (i : S8192x8192.Idx) :
    i ∈ ((cfg0.win 2).blk t).view.set
      ↔ ∀ a : Fin 2, win0_2.index t a * S2048x1024.size a ≤ (i a).val
          ∧ (i a).val < win0_2.index t a * S2048x1024.size a + S2048x1024.size a := by
  show i ∈ ((View.whole main_v0).slice (win0_2.rect t)).set ↔ _
  rw [View.set_slice_whole, Rect.mem_set_unit]
  exact Iff.rfl

/-- THE TILES COVER THE RESULT: index `(r, s)` is in the tile of the point at `(r / 2048, s / 1024)`, which writes
    back as every point does. -/
theorem tiles_cover (i : S8192x8192.Idx) :
    ∃ t : Fin cfg0.N, (cfg0.win 2).flush t = true ∧ i ∈ ((cfg0.win 2).blk t).view.set := by
  have h0 : (i 0).val < 8192 := (i 0).isLt
  have h1 : (i 1).val < 8192 := (i 1).isLt
  obtain ⟨t, ht⟩ := every_tile_visited ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 1024 ≤ (i 1).val ∧ (i 1).val < win0_2.index t (1 : Fin 2) * 1024 + 1024
    omega

/-- THE RESULT ARRAY after the run is the table of the two arguments as launched. -/
theorem array_eq_table (c : Dev nD) :
    (dats m 0 c).arrAt 2 cfg0.N
      = table (m ((c : Thread nD τ).loc main_arg0)) (m ((c : Thread nD τ).loc main_arg1)) :=
  (dats m 0 c).arrAt_eq_of_cover 2 (table (V m c main_arg0) (V m c main_arg1))
    (fun t _ => tile_written m c t) (fun i => tiles_cover i)

/-- The kernel's run: every weakly fair execution terminates with the result array at the Gaussian similarity table
    of the arguments, and the arguments unchanged. -/
theorem run : θ_run defs (onTc (τ := τ) (main (F := Ideal))) ⟨m, fun _ => 0, ρ⟩ fun r => ∀ c : Dev nD,
      r.2.mem ((c : Thread nD τ).loc main_v0)
        = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (array_eq_table m c), (h c).2⟩)
    (Cert.KernelIdeal.Value.run_blocks m ρ)

end Cert.Gaussian.OfKernel

end
-- ==== Proof.ReferenceTable.lean ====
/-
  The reference program computes the Gaussian similarity table.

  Read one operation at a time (the generated read-at-an-index lemmas), entry `(r, q)` of the reference's result is
  the host exponential of `−1` times `((0 + ∑ₖ x(r,k)·x(r,k)) − 2·∑ₖ x(r,k)·y(q,k)) + (0 + ∑ₖ y(q,k)·y(q,k))`: the two
  row sums start from the zero word, which is the real `0`, and the broadcasts only move indices — the column of
  squared lengths of `x` is read at row `r`, the row of squared lengths of `y` at column `q`. At the exact values the
  host exponential is the exponential of the extended reals, so the entry is `Gaussian.entry x y r q`.
-/
import proofs.«181744_j65481071395625_1_alg».proof.Proof.Gen.ReferenceIdeal.Read
import proofs.«181744_j65481071395625_1_alg».proof.Proof.GaussianTable

noncomputable section

namespace Cert.Gaussian.OfReference

open Idealize.ShloMosaic Idealize.ShloMosaic.ValueIdx
open Cert.ReferenceIdeal Cert.ReferenceIdeal.Read
open Cert.DenseLayer (Mat)
open Cert.DenseRows (prodRowT)

/-- The row of `x` that the column of squared lengths, laid over the columns, reads at `(r, q)`: row `r`. -/
theorem x_row_at (r q : Fin 8192) (k : Fin 256) :
    idx_main_v1 (idx_main_v5 (idx_main_v8 (ix2 r q))) k = ix2 r k :=
  funext fun ax => Fin.ext (by match ax with | ⟨0, _⟩ => rfl | ⟨1, _⟩ => rfl)

/-- The row of `y` that the row of squared lengths, laid over the rows, reads at `(r, q)`: row `q`. -/
theorem y_row_at (r q : Fin 8192) (k : Fin 256) :
    idx_main_v3 (idx_main_v10 (idx_main_v11 (ix2 r q))) k = ix2 q k :=
  funext fun ax => Fin.ext (by match ax with | ⟨0, _⟩ => rfl | ⟨1, _⟩ => rfl)

/-- The inner product's left factor at `(r, q)` runs along row `r` of `x`, -/
theorem inner_left_at (r q : Fin 8192) (k : Fin 256) : lidx_main_v4 (ix2 r q) k = ix2 r k :=
  funext fun ax => Fin.ext (by match ax with | ⟨0, _⟩ => rfl | ⟨1, _⟩ => rfl)

/-- and its right factor along row `q` of `y`. -/
theorem inner_right_at (r q : Fin 8192) (k : Fin 256) : ridx_main_v4 (ix2 r q) k = ix2 q k :=
  funext fun ax => Fin.ext (by match ax with | ⟨0, _⟩ => rfl | ⟨1, _⟩ => rfl)

/-- The reference's result, at the exact values, is the Gaussian similarity table of its two arguments. -/
theorem result_eq_table (x y : Mat 8192 256) : val_main_v15 (F := Ideal) x y = table x y := by
  funext i
  obtain ⟨r, q, rfl⟩ : ∃ (r : Fin 8192) (q : Fin 8192), i = ix2 r q := ⟨i 0, i 1, eq_ix2 i⟩
  rw [val_main_v15_apply, val_main_v14_apply, val_main_v13_apply, val_main_cst_2_apply, val_main_v12_apply,
    val_main_v9_apply, val_main_v8_apply, val_main_v5_apply, val_main_v1_apply, val_main_cst_apply,
    val_main_v7_apply, val_main_v6_apply, val_main_cst_1_apply, val_main_v4_apply,
    val_main_v11_apply, val_main_v10_apply, val_main_v3_apply, val_main_cst_0_apply]
  simp only [val_main_v0_apply, val_main_v2_apply, x_row_at, y_row_at, inner_left_at, inner_right_at,
    Ideal.hostUnary_exp_def, Ideal.mulf_def, Ideal.addf_def, Ideal.subf_def, Ideal.ofBits_def,
    Ideal.ofBits_zero_f32, zero_add]
  rfl

end Cert.Gaussian.OfReference

end
-- ==== Proof.lean ====
/-
  A tiled Gaussian-similarity kernel against its plain reference, over the extended reals.

  Both programs take two arrays `x, y : f32[8192, 256]` — 8192 points of a 256-dimensional space each — and return the
  `8192 × 8192` table whose entry `(r, s)` is `exp (−(‖x_r‖² − 2·⟨x_r, y_s⟩ + ‖y_s‖²))`, that is `exp (−‖x_r − y_s‖²)`
  written through the two squared lengths and the inner product.

  The reference computes the squared lengths of all rows of `x` and of `y`, one `8192 × 8192` product of `x` with the
  rows of `y`, and combines them entry by entry. The kernel cuts the table into `4 × 8` tiles of `2048 × 1024`; for a
  tile it loads the 2048 rows of `x` and the 1024 rows of `y` the tile depends on, and computes the same expression on
  them, with the same float words for `2` and `−1` and in the same order of operations. At the exact values a row sum
  is the sum over the row, a product accumulated from zero is the sum of products, a change of layout only moves
  indices, and the host's exponential is the kernel's: both programs' result is the one function `Gaussian.table` of
  the arguments (Proof/GaussianTable.lean), the reference's by reading its operations one at a time
  (Proof/ReferenceTable.lean), the kernel's tile by tile (Proof/KernelTile.lean, Proof/KernelArray.lean). No law of
  arithmetic beyond reading the sums is used, so the finiteness of the inputs is never opened.

  The three programs' frames are the generated ones (the reference's is its generated run with the result dropped),
  and the idealization rewrote nothing, so there is nothing to preserve.
-/
import proofs.«181744_j65481071395625_1_alg».proof.Defs
import proofs.«181744_j65481071395625_1_alg».proof.Proof.Gen.Kernel
import proofs.«181744_j65481071395625_1_alg».proof.Proof.Gen.Kernel.Frame
import proofs.«181744_j65481071395625_1_alg».proof.Proof.Gen.KernelIdeal
import proofs.«181744_j65481071395625_1_alg».proof.Proof.Gen.KernelIdeal.Frame
import proofs.«181744_j65481071395625_1_alg».proof.Proof.Gen.KernelIdeal.Value
import proofs.«181744_j65481071395625_1_alg».proof.Proof.Gen.ReferenceIdeal
import proofs.«181744_j65481071395625_1_alg».proof.Proof.Gen.ReferenceIdeal.Run
import proofs.«181744_j65481071395625_1_alg».proof.Proof.Gen.ReferenceIdeal.Read
import proofs.«181744_j65481071395625_1_alg».proof.Proof.Gen.Pre_finite_inputs
import proofs.«181744_j65481071395625_1_alg».proof.Proof.KernelArray
import proofs.«181744_j65481071395625_1_alg».proof.Proof.ReferenceTable
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the exact values: no rewrite to justify. -/
theorem preserves : Cert.preserves_Kernel_KernelIdeal := trivial

/-- From memories that agree on `x` and `y`, the kernel's result array ends at `Gaussian.table x y` (tile by tile)
    and so does the reference's (operation by operation). -/
theorem algebraic : Cert.algebraic_KernelIdeal_ReferenceIdeal := by
  intro m ρ m' ρ' _ hagree
  refine ⟨_, Cert.Gaussian.OfKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Gaussian.OfReference.result_eq_table, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
